-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S384x1024 : Shape := ⟨2, ![384, 1024]⟩
abbrev S384x128 : Shape := ⟨2, ![384, 128]⟩
abbrev S384 : Shape := ⟨1, ![384]⟩
abbrev S1x128 : Shape := ⟨2, ![1, 128]⟩
abbrev S1 : Shape := ⟨1, ![1]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S384x1024 : S_.BroadcastsInDim S384x1024 (![] : Fin 0 → Fin S384x1024.rank)
  reducesTo_S384x1024_S_d0_1 : S384x1024.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S384 .f32) (main_arg5 : FVec F S1x128 .f32) (main_arg6 : FVec F S1 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S32x2048x1024 .f32) (main_arg1 : FVec F S384x1024 .f32) (main_arg2 : FVec F S384x128 .f32) (main_arg3 : FVec F S384 .f32) (main_arg4 : FVec F S384 .f32) (main_arg5 : FVec F S1x128 .f32) (main_arg6 : FVec F S1 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S384x1024 .f32 := Host.absf main_arg1
  let main_cst_0 : FVec F S_ .f32 := constant S_ .f32 0x7F800000#32
  let main_v5 : FVec F S384x1024 .f32 := broadcastInDim S384x1024 ![] bcast_S_S384x1024 main_cst_0
  let main_v6 : IVec S384x1024 1 := cmpf .olt main_v4 main_v5
  let main_c_1 : IVec S_ 1 := constantI S_ 1 1#1
  let main_v7 : IVec S_ 1 := (fun x v => Host.reduce IntOp.andi x v reducesTo_S384x1024_S_d0_1 h_S_) main_v6 main_c_1
  let main_v8 : IVec S_ 1 := andi main_v3 main_v7
  let main_v9 : FVec F S384x128 .f32 := Host.absf main_arg2
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S384 .f32 := Host.absf main_arg3
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg4 main_arg5 main_arg6 main_v13 main_v16
-- ==== Kernel.lean ====
abbrev S32x2048x1024 : Shape := ⟨3, ![32, 2048, 1024]⟩
abbrev S384x1024 : Shape := ⟨2, ![384, 1024]⟩
abbrev S384x128 : Shape := ⟨2, ![384, 128]⟩
abbrev S384 : Shape := ⟨1, ![384]⟩
abbrev S1x128 : Shape := ⟨2, ![1, 128]⟩
abbrev S1 : Shape := ⟨1, ![1]⟩
abbrev S65536x1024 : Shape := ⟨2, ![65536, 1024]⟩
abbrev S1024x384 : Shape := ⟨2, ![1024, 384]⟩
abbrev S1x384 : Shape := ⟨2, ![1, 384]⟩
abbrev S128 : Shape := ⟨1, ![128]⟩
abbrev S1x1 : Shape := ⟨2, ![1, 1]⟩
abbrev S65536x1 : Shape := ⟨2, ![65536, 1]⟩
abbrev S2048x1024 : Shape := ⟨2, ![2048, 1024]⟩
abbrev S2048x1 : Shape := ⟨2, ![2048, 1]⟩
abbrev S2048x384 : Shape := ⟨2, ![2048, 384]⟩
abbrev S2048x128 : Shape := ⟨2, ![2048, 128]⟩
abbrev S2048 : Shape := ⟨1, ![2048]⟩
abbrev S32x2048 : Shape := ⟨2, ![32, 2048]⟩

abbrev nBuf : Space → Nat
  | .hbm => 20
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S384x1024, .f32⟩
  | .hbm, ⟨2, _⟩ => ⟨S384x128, .f32⟩
  | .hbm, ⟨3, _⟩ => ⟨S384, .f32⟩
  | .hbm, ⟨4, _⟩ => ⟨S384, .f32⟩
  | .hbm, ⟨5, _⟩ => ⟨S1x128, .f32⟩
  | .hbm, ⟨6, _⟩ => ⟨S1, .f32⟩
  | .hbm, ⟨7, _⟩ => ⟨S65536x1024, .f32⟩
  | .hbm, ⟨8, _⟩ => ⟨S1024x384, .f32⟩
  | .hbm, ⟨9, _⟩ => ⟨S1024x384, .bf16⟩
  | .hbm, ⟨10, _⟩ => ⟨S1x384, .f32⟩
  | .hbm, ⟨11, _⟩ => ⟨S128, .f32⟩
  | .hbm, ⟨12, _⟩ => ⟨S1x128, .f32⟩
  | .hbm, ⟨13, _⟩ => ⟨S128, .f32⟩
  | .hbm, ⟨14, _⟩ => ⟨S1x128, .f32⟩
  | .hbm, ⟨15, _⟩ => ⟨S128, .f32⟩
  | .hbm, ⟨16, _⟩ => ⟨S1x128, .f32⟩
  | .hbm, ⟨17, _⟩ => ⟨S1x1, .f32⟩
  | .hbm, ⟨18, _⟩ => ⟨S65536x1, .f32⟩
  | .hbm, ⟨19, _⟩ => ⟨S32x2048, .f32⟩
  | .local _ .vmem, ⟨0, _⟩ => ⟨S2048x1024, .f32⟩
  | .local _ .vmem, ⟨1, _⟩ => ⟨S2048x1024, .f32⟩
  | .local _ .vmem, ⟨2, _⟩ => ⟨S1024x384, .bf16⟩
  | .local _ .vmem, ⟨3, _⟩ => ⟨S1x384, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x1, .f32⟩
  | .local _ .vmem, ⟨9, _⟩ => ⟨S2048x1, .f32⟩
  | .local _ .vmem, ⟨10, _⟩ => ⟨S2048x1, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S32x2048x1024_S65536x1024 : S32x2048x1024.ShapeCasts S65536x1024
  transposes_S384x1024_S1024x384_1_0 : S384x1024.Transposes [1, 0] S1024x384
  bitsLt_bf16_f32 : FTy.bits .bf16 < FTy.bits .f32
  shapeCasts_S384_S1x384 : S384.ShapeCasts S1x384
  slices_S384_S128_0 : S384.Slices ![0] S128
  shapeCasts_S128_S1x128 : S128.ShapeCasts S1x128
  slices_S384_S128_128 : S384.Slices ![128] S128
  slices_S384_S128_256 : S384.Slices ![256] S128
  shapeCasts_S1_S1x1 : S1.ShapeCasts S1x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2048x384 : S1x384.Broadcasts S2048x384
  slices_S2048x384_o0_0_S2048x128 : S2048x384.Slices ![0, 0] S2048x128
  slices_S2048x384_o0_128_S2048x128 : S2048x384.Slices ![0, 128] S2048x128
  slices_S2048x384_o0_256_S2048x128 : S2048x384.Slices ![0, 256] S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x128_S2048 : S2048x128.Reduces [1] S2048
  shapeCasts_S2048_S2048x1 : S2048.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S65536x1_S32x2048 : S65536x1.ShapeCasts S32x2048
  dot_S2048x1024_S1024x384_S2048x384_1_0_0_1_n_n_wf : DotDims.WF S2048x1024 S1024x384 S2048x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S1024x384.size a
  hwx0_1 : ∀ i : grid0.Coords, EltTy.bits .bf16 = 32 ∨ (Rect.block (s := S1024x384) S1024x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x1.size a ≤ S65536x1.size a
  hwx0_8 : ∀ i : grid0.Coords, EltTy.bits .f32 = 32 ∨ (Rect.block (s := S65536x1) S2048x1.size (cc0_transform_8 i) (hinb0_8 i)).WholeWords (EltTy.packing .f32)

variable [Facts₀]

def dot_S2048x1024_S1024x384_S2048x384_1_0_0_1_n_n : DotDims S2048x1024 S1024x384 S2048x384 where
  lhsContracting := [1]
  rhsContracting := [0]
  lhsNonContracting := [0]
  rhsNonContracting := [1]
  lhsBatch := []
  rhsBatch := []
  wf := dot_S2048x1024_S1024x384_S2048x384_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S2048x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x2048x1024 : Shape := ⟨3, ![32, 2048, 1024]⟩
abbrev S384x1024 : Shape := ⟨2, ![384, 1024]⟩
abbrev S384x128 : Shape := ⟨2, ![384, 128]⟩
abbrev S384 : Shape := ⟨1, ![384]⟩
abbrev S1x128 : Shape := ⟨2, ![1, 128]⟩
abbrev S1 : Shape := ⟨1, ![1]⟩
abbrev S32x2048x384 : Shape := ⟨3, ![32, 2048, 384]⟩
abbrev S1x1x384 : Shape := ⟨3, ![1, 1, 384]⟩
abbrev S32x2048x128 : Shape := ⟨3, ![32, 2048, 128]⟩
abbrev S128 : Shape := ⟨1, ![128]⟩
abbrev S1x1x128 : Shape := ⟨3, ![1, 1, 128]⟩
abbrev S_ : Shape := ⟨0, ![]⟩
abbrev S32x2048x1 : Shape := ⟨3, ![32, 2048, 1]⟩
abbrev S1x1x1 : Shape := ⟨3, ![1, 1, 1]⟩
abbrev S32x2048 : Shape := ⟨2, ![32, 2048]⟩

abbrev nBuf : Space → Nat
  | .hbm => 53
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S384x1024, .f32⟩
  | .hbm, ⟨2, _⟩ => ⟨S384x128, .f32⟩
  | .hbm, ⟨3, _⟩ => ⟨S384, .f32⟩
  | .hbm, ⟨4, _⟩ => ⟨S384, .f32⟩
  | .hbm, ⟨5, _⟩ => ⟨S1x128, .f32⟩
  | .hbm, ⟨6, _⟩ => ⟨S1, .f32⟩
  | .hbm, ⟨7, _⟩ => ⟨S32x2048x384, .f32⟩
  | .hbm, ⟨8, _⟩ => ⟨S1x1x384, .f32⟩
  | .hbm, ⟨9, _⟩ => ⟨S32x2048x384, .f32⟩
  | .hbm, ⟨10, _⟩ => ⟨S32x2048x384, .f32⟩
  | .hbm, ⟨11, _⟩ => ⟨S32x2048x128, .f32⟩
  | .hbm, ⟨12, _⟩ => ⟨S32x2048x128, .f32⟩
  | .hbm, ⟨13, _⟩ => ⟨S32x2048x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S1x1x128, .f32⟩
  | .hbm, ⟨18, _⟩ => ⟨S32x2048x128, .f32⟩
  | .hbm, ⟨19, _⟩ => ⟨S32x2048x128, .f32⟩
  | .hbm, ⟨20, _⟩ => ⟨S32x2048x128, .f32⟩
  | .hbm, ⟨21, _⟩ => ⟨S32x2048x128, .f32⟩
  | .hbm, ⟨22, _⟩ => ⟨S_, .f32⟩
  | .hbm, ⟨23, _⟩ => ⟨S32x2048x128, .f32⟩
  | .hbm, ⟨24, _⟩ => ⟨S32x2048x128, .f32⟩
  | .hbm, ⟨25, _⟩ => ⟨S_, .f32⟩
  | .hbm, ⟨26, _⟩ => ⟨S32x2048x128, .f32⟩
  | .hbm, ⟨27, _⟩ => ⟨S32x2048x128, .f32⟩
  | .hbm, ⟨28, _⟩ => ⟨S1x1x128, .f32⟩
  | .hbm, ⟨29, _⟩ => ⟨S32x2048x128, .f32⟩
  | .hbm, ⟨30, _⟩ => ⟨S32x2048x128, .f32⟩
  | .hbm, ⟨31, _⟩ => ⟨S32x2048x128, .f32⟩
  | .hbm, ⟨32, _⟩ => ⟨S32x2048x128, .f32⟩
  | .hbm, ⟨33, _⟩ => ⟨S_, .f32⟩
  | .hbm, ⟨34, _⟩ => ⟨S32x2048x128, .f32⟩
  | .hbm, ⟨35, _⟩ => ⟨S32x2048x128, .f32⟩
  | .hbm, ⟨36, _⟩ => ⟨S_, .f32⟩
  | .hbm, ⟨37, _⟩ => ⟨S32x2048x128, .f32⟩
  | .hbm, ⟨38, _⟩ => ⟨S32x2048x128, .f32⟩
  | .hbm, ⟨39, _⟩ => ⟨S1x1x128, .f32⟩
  | .hbm, ⟨40, _⟩ => ⟨S32x2048x128, .f32⟩
  | .hbm, ⟨41, _⟩ => ⟨S32x2048x128, .f32⟩
  | .hbm, ⟨42, _⟩ => ⟨S32x2048x128, .f32⟩
  | .hbm, ⟨43, _⟩ => ⟨S32x2048x128, .f32⟩
  | .hbm, ⟨44, _⟩ => ⟨S_, .f32⟩
  | .hbm, ⟨45, _⟩ => ⟨S32x2048x128, .f32⟩
  | .hbm, ⟨46, _⟩ => ⟨S32x2048x128, .f32⟩
  | .hbm, ⟨47, _⟩ => ⟨S32x2048x128, .f32⟩
  | .hbm, ⟨48, _⟩ => ⟨S32x2048x1, .f32⟩
  | .hbm, ⟨49, _⟩ => ⟨S1x1x1, .f32⟩
  | .hbm, ⟨50, _⟩ => ⟨S32x2048x1, .f32⟩
  | .hbm, ⟨51, _⟩ => ⟨S32x2048x1, .f32⟩
  | .hbm, ⟨52, _⟩ => ⟨S32x2048, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]

class Facts₀ : Prop where
  bcast_S384_S1x1x384_2 : S384.BroadcastsInDim S1x1x384 (![2] : Fin 1 → Fin S1x1x384.rank)
  bcast_S1x1x384_S32x2048x384_0_1_2 : S1x1x384.BroadcastsInDim S32x2048x384 (![0, 1, 2] : Fin 3 → Fin S32x2048x384.rank)
  slices_S32x2048x384_S32x2048x128_0_0_0 : S32x2048x384.Slices ![0, 0, 0] S32x2048x128
  slices_S32x2048x384_S32x2048x128_0_0_128 : S32x2048x384.Slices ![0, 0, 128] S32x2048x128
  slices_S32x2048x384_S32x2048x128_0_0_256 : S32x2048x384.Slices ![0, 0, 256] S32x2048x128
  slices_S384_S128_0 : S384.Slices ![0] S128
  slices_S384_S128_128 : S384.Slices ![128] S128
  slices_S384_S128_256 : S384.Slices ![256] S128
  bcast_S128_S1x1x128_2 : S128.BroadcastsInDim S1x1x128 (![2] : Fin 1 → Fin S1x1x128.rank)
  bcast_S1x1x128_S32x2048x128_0_1_2 : S1x1x128.BroadcastsInDim S32x2048x128 (![0, 1, 2] : Fin 3 → Fin S32x2048x128.rank)
  bcast_S_S32x2048x128 : S_.BroadcastsInDim S32x2048x128 (![] : Fin 0 → Fin S32x2048x128.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  shapeCasts_S32x2048x1_S32x2048 : S32x2048x1.ShapeCasts S32x2048
  dot_S32x2048x1024_S384x1024_S32x2048x384_2_1_01_0_n_n_wf : DotDims.WF S32x2048x1024 S384x1024 S32x2048x384 [2] [1] [0, 1] [0] [] []
  dot_S32x2048x128_S1x128_S32x2048x1_2_1_01_0_n_n_wf : DotDims.WF S32x2048x128 S1x128 S32x2048x1 [2] [1] [0, 1] [0] [] []

variable [Facts₀]

def dot_S32x2048x1024_S384x1024_S32x2048x384_2_1_01_0_n_n : DotDims S32x2048x1024 S384x1024 S32x2048x384 where
  lhsContracting := [2]
  rhsContracting := [1]
  lhsNonContracting := [0, 1]
  rhsNonContracting := [0]
  lhsBatch := []
  rhsBatch := []
  wf := dot_S32x2048x1024_S384x1024_S32x2048x384_2_1_01_0_n_n_wf
def dot_S32x2048x128_S1x128_S32x2048x1_2_1_01_0_n_n : DotDims S32x2048x128 S1x128 S32x2048x1 where
  lhsContracting := [2]
  rhsContracting := [1]
  lhsNonContracting := [0, 1]
  rhsNonContracting := [0]
  lhsBatch := []
  rhsBatch := []
  wf := dot_S32x2048x128_S1x128_S32x2048x1_2_1_01_0_n_n_wf

class Facts : Prop extends Facts₀ where

variable [Facts]
-- ==== Proof.ZeroStateGru.lean ====
/-
  The mathematics both programs compute, stated once over plain index types.

  A GRU cell is run against a hidden state that is always zero, so the recurrent weights never
  contribute and each row of the input is treated on its own. For one row `x` (1024 numbers), with the
  input weights `w` (384 × 1024), the input biases `bi` (384) and the hidden biases split by gate
  (`br`, `bz`, `bn`, 128 each), the three gate pre-activations are `a_g = Σ_k x_k · w_{g,k} + bi_g`,
  read at columns `j`, `128 + j`, `256 + j`; then
      r_j = σ(a_j + br_j),   z_j = σ(a_{128+j} + bz_j),   n_j = tanh(a_{256+j} + r_j · bn_j),
      h_j = (1 - z_j) · n_j,
  with `σ(a) = 1 / (1 + e^{-a})`, and the head returns `Σ_j h_j · lw_j + lb`.
  Everything is on the extended reals; the constant `1` is kept as the word both programs print.
-/
import Idealize.ShloMosaic.PureOps.Ideal
import Idealize.ShloMosaic.PureOps.Ideal.Laws
import Idealize.ShloMosaic.Lib.ValueIdx

noncomputable section

namespace Cert.ZeroStateGru

open Idealize.ShloMosaic Idealize.ShloMosaic.ValueIdx

/-- The word of `1.0`, as the extended real it denotes. -/
def one : EReal := Ideal.ofBits .f32 0x3F800000#32

/-- The logistic function as both programs spell it, `1 / (1 + e^{-a})`. -/
def sigm (a : EReal) : EReal := Ideal.div one (one + Ideal.exp (-a))

/-- Column `j` of the reset gate, of the update gate and of the candidate, among the 384 stacked columns. -/
def rgate (j : Fin 128) : Fin 384 := ⟨j.val, by have := j.isLt; omega⟩
def zgate (j : Fin 128) : Fin 384 := ⟨128 + j.val, by have := j.isLt; omega⟩
def ngate (j : Fin 128) : Fin 384 := ⟨256 + j.val, by have := j.isLt; omega⟩

/-- The input projection of one row at stacked column `g`. -/
def preact (x : Fin 1024 → EReal) (w : Fin 384 → Fin 1024 → EReal) (bi : Fin 384 → EReal) (g : Fin 384) : EReal :=
  (∑ k : Fin 1024, x k * w g k) + bi g

/-- The update gate of one row at column `j`. -/
def update (x : Fin 1024 → EReal) (w : Fin 384 → Fin 1024 → EReal) (bi : Fin 384 → EReal) (bz : Fin 128 → EReal) (j : Fin 128) : EReal :=
  sigm (preact x w bi (zgate j) + bz j)

/-- The argument of the candidate's `tanh` at column `j`: the reset gate scales the hidden bias only. -/
def candArg (x : Fin 1024 → EReal) (w : Fin 384 → Fin 1024 → EReal) (bi : Fin 384 → EReal) (br bn : Fin 128 → EReal) (j : Fin 128) : EReal :=
  preact x w bi (ngate j) + sigm (preact x w bi (rgate j) + br j) * bn j

/-- The linear head over a row's update gate `z` and candidate argument `a`. -/
def headOf (z a : Fin 128 → EReal) (lw : Fin 128 → EReal) (lb : EReal) : EReal :=
  (∑ j : Fin 128, (one - z j) * Ideal.tanh (a j) * lw j) + lb

/-- One row's result. -/
def head (x : Fin 1024 → EReal) (w : Fin 384 → Fin 1024 → EReal) (bi : Fin 384 → EReal) (br bz bn : Fin 128 → EReal)
    (lw : Fin 128 → EReal) (lb : EReal) : EReal :=
  headOf (update x w bi bz) (candArg x w bi br bn) lw lb

/-- The whole result: entry `(b, l)` is the head of row `(b, l)` of `x`. -/
def result (x : (⟨3, ![32, 2048, 1024]⟩ : Shape).Idx → EReal) (wih : (⟨2, ![384, 1024]⟩ : Shape).Idx → EReal)
    (bih bhh : (⟨1, ![384]⟩ : Shape).Idx → EReal) (lw : (⟨2, ![1, 128]⟩ : Shape).Idx → EReal)
    (lb : (⟨1, ![1]⟩ : Shape).Idx → EReal) : (⟨2, ![32, 2048]⟩ : Shape).Idx → EReal := fun i =>
  head (fun k => x (ix3 (i 0) (i 1) k)) (fun g k => wih (ix2 g k)) (fun g => bih (ix1 g))
    (fun j => bhh (ix1 (rgate j))) (fun j => bhh (ix1 (zgate j))) (fun j => bhh (ix1 (ngate j)))
    (fun j => lw (ix2 (0 : Fin 1) j)) (lb (ix1 (0 : Fin 1)))

/-- The kernel negates by subtracting from the zero word; on the extended reals that is the negation. -/
theorem zero_word_sub (a : EReal) : Ideal.ofBits .f32 0x00000000#32 - a = -a := by
  rw [Ideal.ofBits_zero_f32, zero_sub]

end Cert.ZeroStateGru

end
-- ==== Proof.ReferenceRows.lean ====
/-
  The reference, read index by index, is the row-wise head of `ZeroStateGru`.

  The reference flattens nothing: entry `(b, l)` of its result contracts row `(b, l)` of `x` with the rows of
  `weight_ih`, adds the input bias, slices the 384 columns into the three gates, adds the matching slice of
  `bias_hh` and applies the gate nonlinearities, and contracts the 128 hidden values with `lin_w`'s one row.
  Each stage is read at an index by the generated read lemmas; the index functions they compose are
  identified with the coordinates `(b, l, ·)` once per stage.
-/
import proofs.«102016_j12790412607633_1_alg».proof.Proof.Gen.ReferenceIdeal.Read
import proofs.«102016_j12790412607633_1_alg».proof.Proof.ZeroStateGru

noncomputable section

namespace Cert.ReferenceIdeal.RefValue

open Cert.ReferenceIdeal Cert.ReferenceIdeal.Read Idealize.ShloMosaic Idealize.ShloMosaic.ValueIdx Cert.ZeroStateGru

variable (x0 : S32x2048x1024.Idx → EReal) (x1 : S384x1024.Idx → EReal) (x3 x4 : S384.Idx → EReal)
  (x5 : S1x128.Idx → EReal) (x6 : S1.Idx → EReal)

/-- The input projection plus its bias at `(b, l, g)`: row `(b, l)` of `x` against row `g` of the weights. -/
theorem proj_at (b : Fin 32) (l : Fin 2048) (g : Fin 384) :
    val_main_v3 (F := Ideal) x0 x1 x3 (ix3 b l g)
      = preact (fun k => x0 (ix3 b l k)) (fun g k => x1 (ix2 g k)) (fun g => x3 (ix1 g)) g := by
  rw [val_main_v3_apply, val_main_v0_apply, val_main_v2_apply, val_main_v1_apply]
  have e1 : ∀ k, lidx_main_v0 (ix3 b l g) k = ix3 b l k := fun k => funext fun a => by
    match a with | ⟨0, _⟩ => rfl | ⟨1, _⟩ => rfl | ⟨2, _⟩ => rfl
  have e2 : ∀ k, ridx_main_v0 (ix3 b l g) k = ix2 g k := fun k => funext fun a => by
    match a with | ⟨0, _⟩ => rfl | ⟨1, _⟩ => rfl
  have e3 : idx_main_v1 (idx_main_v2 (ix3 b l g)) = ix1 g := funext fun a => by
    match a with | ⟨0, _⟩ => rfl
  simp only [e1, e2, e3, Ideal.addf_def]
  rfl

/-- The reset gate at `(b, l, j)`: the logistic function of column `j` of the projection plus `bias_hh[j]`. -/
theorem reset_at (b : Fin 32) (l : Fin 2048) (j : Fin 128) :
    val_main_v18 (F := Ideal) x0 x1 x3 x4 (ix3 b l j)
      = sigm (preact (fun k => x0 (ix3 b l k)) (fun g k => x1 (ix2 g k)) (fun g => x3 (ix1 g)) (rgate j) + x4 (ix1 (rgate j))) := by
  rw [val_main_v18_apply, val_main_v17_apply, val_main_cst_0_apply, val_main_v16_apply, val_main_v15_apply,
    val_main_cst_apply, val_main_v14_apply, val_main_v13_apply, val_main_v12_apply, val_main_v4_apply,
    val_main_v11_apply, val_main_v10_apply, val_main_v7_apply]
  have e1 : idx_main_v4 (ix3 b l j) = ix3 b l (rgate j) := funext fun a => by
    match a with | ⟨0, _⟩ => rfl | ⟨1, _⟩ => rfl | ⟨2, _⟩ => rfl
  have e2 : idx_main_v7 (idx_main_v10 (idx_main_v11 (ix3 b l j))) = ix1 (rgate j) := funext fun a => by
    match a with | ⟨0, _⟩ => rfl
  rw [e1, e2, proj_at]
  simp only [Ideal.hostDivf_def, Ideal.addf_def, Ideal.hostUnary_exp_def, Ideal.hostNegf_def, Ideal.negf_def, Ideal.ofBits_def]
  rfl

/-- The update gate at `(b, l, j)`: the same of column `128 + j` and `bias_hh[128 + j]`. -/
theorem update_at (b : Fin 32) (l : Fin 2048) (j : Fin 128) :
    val_main_v27 (F := Ideal) x0 x1 x3 x4 (ix3 b l j)
      = update (fun k => x0 (ix3 b l k)) (fun g k => x1 (ix2 g k)) (fun g => x3 (ix1 g)) (fun j => x4 (ix1 (zgate j))) j := by
  rw [val_main_v27_apply, val_main_v26_apply, val_main_cst_2_apply, val_main_v25_apply, val_main_v24_apply,
    val_main_cst_1_apply, val_main_v23_apply, val_main_v22_apply, val_main_v21_apply, val_main_v5_apply,
    val_main_v20_apply, val_main_v19_apply, val_main_v8_apply]
  have e1 : idx_main_v5 (ix3 b l j) = ix3 b l (zgate j) := funext fun a => by
    match a with | ⟨0, _⟩ => rfl | ⟨1, _⟩ => rfl | ⟨2, _⟩ => rfl
  have e2 : idx_main_v8 (idx_main_v19 (idx_main_v20 (ix3 b l j))) = ix1 (zgate j) := funext fun a => by
    match a with | ⟨0, _⟩ => rfl
  rw [e1, e2, proj_at]
  simp only [Ideal.hostDivf_def, Ideal.addf_def, Ideal.hostUnary_exp_def, Ideal.hostNegf_def, Ideal.negf_def, Ideal.ofBits_def]
  rfl

/-- The argument of the candidate's `tanh` at `(b, l, j)`: column `256 + j` of the projection plus the reset
    gate times `bias_hh[256 + j]`. -/
theorem cand_at (b : Fin 32) (l : Fin 2048) (j : Fin 128) :
    val_main_v31 (F := Ideal) x0 x1 x3 x4 (ix3 b l j)
      = candArg (fun k => x0 (ix3 b l k)) (fun g k => x1 (ix2 g k)) (fun g => x3 (ix1 g)) (fun j => x4 (ix1 (rgate j)))
          (fun j => x4 (ix1 (ngate j))) j := by
  rw [val_main_v31_apply, val_main_v6_apply, val_main_v30_apply, val_main_v29_apply, val_main_v28_apply, val_main_v9_apply]
  have e1 : idx_main_v6 (ix3 b l j) = ix3 b l (ngate j) := funext fun a => by
    match a with | ⟨0, _⟩ => rfl | ⟨1, _⟩ => rfl | ⟨2, _⟩ => rfl
  have e2 : idx_main_v9 (idx_main_v28 (idx_main_v29 (ix3 b l j))) = ix1 (ngate j) := funext fun a => by
    match a with | ⟨0, _⟩ => rfl
  rw [e1, e2, proj_at, reset_at]
  simp only [Ideal.addf_def, Ideal.mulf_def]
  rfl

/-- THE REFERENCE IS THE SPECIFICATION: its result stage is `result` of its arguments. -/
theorem val_eq_result : val_main_v40 (F := Ideal) x0 x1 x3 x4 x5 x6 = result x0 x1 x3 x4 x5 x6 := by
  funext i
  obtain ⟨b, l, rfl⟩ : ∃ (b : Fin 32) (l : Fin 2048), i = ix2 b l := ⟨i 0, i 1, eq_ix2 i⟩
  rw [val_main_v40_apply, val_main_v39_apply, val_main_v36_apply, val_main_v38_apply, val_main_v37_apply]
  have hb : b.val < 32 := b.isLt
  have hl : l.val < 2048 := l.isLt
  have e0 : idx_main_v40 (ix2 b l) = ix3 b l (0 : Fin 1) := funext fun a => Fin.ext (by
    match a with
    | ⟨0, _⟩ => show (b.val * 2048 + l.val) / 2048 = b.val; omega
    | ⟨1, _⟩ => show (b.val * 2048 + l.val) / 1 % 2048 = l.val; omega
    | ⟨2, _⟩ => rfl)
  have e1 : ∀ k, lidx_main_v36 (ix3 b l (0 : Fin 1)) k = ix3 b l k := fun k => funext fun a => by
    match a with | ⟨0, _⟩ => rfl | ⟨1, _⟩ => rfl | ⟨2, _⟩ => rfl
  have e2 : ∀ k, ridx_main_v36 (ix3 b l (0 : Fin 1)) k = ix2 (0 : Fin 1) k := fun k => funext fun a => by
    match a with | ⟨0, _⟩ => rfl | ⟨1, _⟩ => rfl
  have e3 : idx_main_v37 (idx_main_v38 (ix3 b l (0 : Fin 1))) = ix1 (0 : Fin 1) := funext fun a => by
    match a with | ⟨0, _⟩ => rfl
  rw [e0, e3]
  simp only [e1, e2]
  have hk : ∀ k : Fin 128, val_main_v35 (F := Ideal) x0 x1 x3 x4 (ix3 b l k)
      = (one - update (fun k => x0 (ix3 b l k)) (fun g k => x1 (ix2 g k)) (fun g => x3 (ix1 g)) (fun j => x4 (ix1 (zgate j))) k)
        * Ideal.tanh (candArg (fun k => x0 (ix3 b l k)) (fun g k => x1 (ix2 g k)) (fun g => x3 (ix1 g))
            (fun j => x4 (ix1 (rgate j))) (fun j => x4 (ix1 (ngate j))) k) := fun k => by
    rw [val_main_v35_apply, val_main_v34_apply, val_main_v33_apply, val_main_cst_3_apply, val_main_v32_apply,
      update_at, cand_at]
    simp only [Ideal.mulf_def, Ideal.subf_def, Ideal.hostUnary_tanh_def, Ideal.ofBits_def]
    rfl
  simp only [hk, Ideal.addf_def]
  rfl

end Cert.ReferenceIdeal.RefValue

end
-- ==== Proof.PayloadRows.lean ====
/-
  The kernel body's arithmetic, read at one row.

  The body loads a block of 2048 rows of `x` (1024 wide), the transposed weights (1024 × 384), the input bias
  as one row of 384, the three slices of the hidden bias and the head's weights as rows of 128 and the head's
  bias as a single entry, and stores one column of 2048 results. Row `p` of that column depends on row `p` of
  the block of `x` only: the matrix product at `(p, g)` is `Σ_k x[p, k] · w[k, g]`, every bias is broadcast down
  the rows, the three gates are the column ranges `[0, 128)`, `[128, 256)`, `[256, 384)` of the product, and the
  final lane sum runs over the 128 hidden values of that row. So row `p` of the stored column is `head` of
  row `p`. A change of float format does nothing on the extended reals, and subtracting from the zero word is
  negation.
-/
import proofs.«102016_j12790412607633_1_alg».proof.Proof.Gen.KernelIdeal.Skeleton
import proofs.«102016_j12790412607633_1_alg».proof.Proof.ZeroStateGru
import Idealize.ShloMosaic.Lib.Pipeline.Value
import Idealize.ShloMosaic.Lib.ValueIdx
import Idealize.ShloMosaic.PureOps.Ideal.Laws

noncomputable section

namespace Cert.KernelIdeal.PayValue

open Cert.KernelIdeal Cert.KernelIdeal.Gen Idealize.ShloMosaic Idealize.ShloMosaic.ValueIdx Cert.ZeroStateGru

/-! ## The layout operations of the body, each at a row and a column -/

/-- A row of 384 broadcast down 2048 rows. -/
theorem bcast384_at (v : S1x384.Idx → EReal) (h : S1x384.Broadcasts S2048x384) (p : Fin 2048) (g : Fin 384) :
    broadcastTo S2048x384 v h (ix2 p g) = v (ix2 (0 : Fin 1) g) :=
  broadcastTo_apply v h (ix2 p g) (ix2 (0 : Fin 1) g) (fun a => match a with
    | ⟨0, _⟩ => by show 0 = if (1 : Nat) = 1 then 0 else p.val; rw [if_pos rfl]
    | ⟨1, _⟩ => by show g.val = if (384 : Nat) = 1 then 0 else g.val; rw [if_neg (by decide)])

/-- A row of 128 broadcast down 2048 rows. -/
theorem bcast128_at (v : S1x128.Idx → EReal) (h : S1x128.Broadcasts S2048x128) (p : Fin 2048) (j : Fin 128) :
    broadcastTo S2048x128 v h (ix2 p j) = v (ix2 (0 : Fin 1) j) :=
  broadcastTo_apply v h (ix2 p j) (ix2 (0 : Fin 1) j) (fun a => match a with
    | ⟨0, _⟩ => by show 0 = if (1 : Nat) = 1 then 0 else p.val; rw [if_pos rfl]
    | ⟨1, _⟩ => by show j.val = if (128 : Nat) = 1 then 0 else j.val; rw [if_neg (by decide)])

/-- A single entry broadcast down a column of 2048. -/
theorem bcast1_at (v : S1x1.Idx → EReal) (h : S1x1.Broadcasts S2048x1) (p : Fin 2048) :
    broadcastTo S2048x1 v h (ix2 p (0 : Fin 1)) = v (ix2 (0 : Fin 1) (0 : Fin 1)) :=
  broadcastTo_apply v h (ix2 p (0 : Fin 1)) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else 0; rw [if_pos rfl])

/-- The reset gate's columns of the stacked projection. -/
theorem slice0_at (v : S2048x384.Idx → EReal) (h : S2048x384.Slices ![0, 0] S2048x128) (p : Fin 2048) (j : Fin 128) :
    extractStridedSlice S2048x128 ![0, 0] v h (ix2 p j) = v (ix2 p (rgate j)) :=
  extractStridedSlice_apply ![0, 0] v h (ix2 p j) (ix2 p (rgate j)) (fun a => match a with
    | ⟨0, _⟩ => by show p.val = 0 + p.val; omega
    | ⟨1, _⟩ => by show j.val = 0 + j.val; omega)

/-- The update gate's columns. -/
theorem slice128_at (v : S2048x384.Idx → EReal) (h : S2048x384.Slices ![0, 128] S2048x128) (p : Fin 2048) (j : Fin 128) :
    extractStridedSlice S2048x128 ![0, 128] v h (ix2 p j) = v (ix2 p (zgate j)) :=
  extractStridedSlice_apply ![0, 128] v h (ix2 p j) (ix2 p (zgate j)) (fun a => match a with
    | ⟨0, _⟩ => by show p.val = 0 + p.val; omega
    | ⟨1, _⟩ => by show 128 + j.val = 128 + j.val; rfl)

/-- The candidate's columns. -/
theorem slice256_at (v : S2048x384.Idx → EReal) (h : S2048x384.Slices ![0, 256] S2048x128) (p : Fin 2048) (j : Fin 128) :
    extractStridedSlice S2048x128 ![0, 256] v h (ix2 p j) = v (ix2 p (ngate j)) :=
  extractStridedSlice_apply ![0, 256] v h (ix2 p j) (ix2 p (ngate j)) (fun a => match a with
    | ⟨0, _⟩ => by show p.val = 0 + p.val; omega
    | ⟨1, _⟩ => by show 256 + j.val = 256 + j.val; rfl)

/-! ## The matrix product at a row and a column -/

theorem lhs_mm_0 (i : S2048x384.Idx) (q : dot_S2048x1024_S1024x384_S2048x384_1_0_0_1_n_n.contr.Idx) :
    (dot_S2048x1024_S1024x384_S2048x384_1_0_0_1_n_n.lhsIdx i q 0).val = (i 0).val := by
  unfold DotDims.lhsIdx
  rw [dif_neg (show ¬(0 : Fin S2048x1024.rank) ∈ dot_S2048x1024_S1024x384_S2048x384_1_0_0_1_n_n.lhsBatch by decide), dif_pos (show (0 : Fin S2048x1024.rank) ∈ dot_S2048x1024_S1024x384_S2048x384_1_0_0_1_n_n.lhsNonContracting by decide)]
  rfl
theorem lhs_mm_1 (i : S2048x384.Idx) (q : dot_S2048x1024_S1024x384_S2048x384_1_0_0_1_n_n.contr.Idx) :
    (dot_S2048x1024_S1024x384_S2048x384_1_0_0_1_n_n.lhsIdx i q 1).val = (q ⟨0, by decide⟩).val :=
  dot_S2048x1024_S1024x384_S2048x384_1_0_0_1_n_n.lhsIdx_val_of_single rfl i q
theorem rhs_mm_0 (i : S2048x384.Idx) (q : dot_S2048x1024_S1024x384_S2048x384_1_0_0_1_n_n.contr.Idx) :
    (dot_S2048x1024_S1024x384_S2048x384_1_0_0_1_n_n.rhsIdx i q 0).val = (q ⟨0, by decide⟩).val :=
  dot_S2048x1024_S1024x384_S2048x384_1_0_0_1_n_n.rhsIdx_val_of_single rfl i q
theorem rhs_mm_1 (i : S2048x384.Idx) (q : dot_S2048x1024_S1024x384_S2048x384_1_0_0_1_n_n.contr.Idx) :
    (dot_S2048x1024_S1024x384_S2048x384_1_0_0_1_n_n.rhsIdx i q 1).val = (i 1).val := by
  unfold DotDims.rhsIdx
  rw [dif_neg (show ¬(1 : Fin S1024x384.rank) ∈ dot_S2048x1024_S1024x384_S2048x384_1_0_0_1_n_n.rhsBatch by decide), dif_pos (show (1 : Fin S1024x384.rank) ∈ dot_S2048x1024_S1024x384_S2048x384_1_0_0_1_n_n.rhsNonContracting by decide)]
  rfl

/-- Into a zero accumulator the product at `(p, g)` is the sum over the 1024 shared coordinates. -/
theorem matmul_at (a : S2048x1024.Idx → EReal) (b : S1024x384.Idx → EReal) (p : Fin 2048) (g : Fin 384) :
    FloatOps.matmul (F := Ideal) (φ₁ := .bf16) (φ₂ := .bf16) dot_S2048x1024_S1024x384_S2048x384_1_0_0_1_n_n none a b (constant S2048x384 .f32 0x00000000#32) (ix2 p g)
      = ∑ k : Fin 1024, a (ix2 p k) * b (ix2 k g) := by
  rw [Ideal.matmul_constant_zero_apply, ← Equiv.sum_comp (contrEquiv1 dot_S2048x1024_S1024x384_S2048x384_1_0_0_1_n_n 1024 rfl rfl).symm]
  refine Finset.sum_congr rfl fun k _ => ?_
  have hk := contrEquiv1_symm_val dot_S2048x1024_S1024x384_S2048x384_1_0_0_1_n_n 1024 rfl rfl k
  have el : dot_S2048x1024_S1024x384_S2048x384_1_0_0_1_n_n.lhsIdx (ix2 p g) ((contrEquiv1 dot_S2048x1024_S1024x384_S2048x384_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S2048x1024_S1024x384_S2048x384_1_0_0_1_n_n.rhsIdx (ix2 p g) ((contrEquiv1 dot_S2048x1024_S1024x384_S2048x384_1_0_0_1_n_n 1024 rfl rfl).symm k) = ix2 k g := funext fun a => Fin.ext (by
    match a with
    | ⟨0, _⟩ => exact (rhs_mm_0 _ _).trans hk
    | ⟨1, _⟩ => exact rhs_mm_1 _ _)
  rw [el, er]

/-! ## The lane sum, reshaped to a column -/

/-- The sum over the 128 lanes of row `p`, stored as entry `(p, 0)` of a column. -/
theorem rowsum_at (v : S2048x128.Idx → EReal) (h : S2048x128.Reduces [1] S2048) (hc : S2048.ShapeCasts S2048x1)
    (hφ : FKind.Formats .f32) (hacc : (0x00000000#32 : BitVec 32) = FKind.add.neutral .f32 hφ) (p : Fin 2048) :
    shapeCast S2048x1 (multiReduction (F := Ideal) (φ := .f32) .add [1] S2048 v 0x00000000#32 h hφ hacc) hc (ix2 p (0 : Fin 1))
      = ∑ j : Fin 128, v (ix2 p j) := by
  rw [shapeCast_apply _ hc (ix2 p (0 : Fin 1)) (ix1 p) (by
    rw [Shape.rowMajor_val_one, Shape.rowMajor_val_two]; show p.val = p.val * 1 + 0; omega)]
  rw [Ideal.multiReduction_add_single]
  refine Finset.sum_congr rfl fun j _ => ?_
  exact congrArg v (funext fun a => Fin.ext (by
    match a with
    | ⟨0, _⟩ => rfl
    | ⟨1, _⟩ => rfl))

/-! ## The body's values at a row -/

variable (x0 : Vec Ideal S2048x1024 .f32) (x1 : Vec Ideal S1024x384 .bf16) (x2 : Vec Ideal S1x384 .f32)

/-- The stacked projection plus the input bias at row `p`, column `g`. -/
theorem proj_at (p : Fin 2048) (g : Fin 384) :
    k0_pay2 (F := Ideal) x0 x1 x2 (ix2 p g)
      = preact (fun k => x0 (ix2 p k)) (fun g k => x1 (ix2 k g)) (fun g => x2 (ix2 (0 : Fin 1) g)) g := by
  unfold k0_pay2
  show FloatOps.matmul (F := Ideal) (φ₁ := .bf16) (φ₂ := .bf16) dot_S2048x1024_S1024x384_S2048x384_1_0_0_1_n_n none (shapeCast S2048x1024 x0 _) (shapeCast S1024x384 x1 _)
      (constant S2048x384 .f32 0x00000000#32) (ix2 p g) + broadcastTo S2048x384 (shapeCast S1x384 x2 _) _ (ix2 p g) = _
  rw [matmul_at, bcast384_at, shapeCast_self, shapeCast_self, shapeCast_self]
  rfl

/-- The update gate at row `p`, column `j`. -/
theorem update_at (x4 : Vec Ideal S1x128 .f32) (p : Fin 2048) (j : Fin 128) :
    k0_pay3 (F := Ideal) x0 x1 x2 x4 (ix2 p j)
      = update (fun k => x0 (ix2 p k)) (fun g k => x1 (ix2 k g)) (fun g => x2 (ix2 (0 : Fin 1) g))
          (fun j => x4 (ix2 (0 : Fin 1) j)) j := by
  unfold k0_pay3
  show Ideal.div (Ideal.ofBits .f32 0x3F800000#32) (Ideal.ofBits .f32 0x3F800000#32 + Ideal.exp (Ideal.ofBits .f32 0x00000000#32
      - (extractStridedSlice S2048x128 ![0, 128] (k0_pay2 (F := Ideal) x0 x1 x2) _ (ix2 p j)
          + broadcastTo S2048x128 (shapeCast S1x128 x4 _) _ (ix2 p j)))) = _
  rw [slice128_at, bcast128_at, shapeCast_self, proj_at, zero_word_sub]
  rfl

/-- The argument of the candidate's `tanh` at row `p`, column `j`. -/
theorem cand_at (x3 x5 : Vec Ideal S1x128 .f32) (p : Fin 2048) (j : Fin 128) :
    k0_pay4 (F := Ideal) x0 x1 x2 x3 x5 (ix2 p j)
      = candArg (fun k => x0 (ix2 p k)) (fun g k => x1 (ix2 k g)) (fun g => x2 (ix2 (0 : Fin 1) g))
          (fun j => x3 (ix2 (0 : Fin 1) j)) (fun j => x5 (ix2 (0 : Fin 1) j)) j := by
  unfold k0_pay4
  show extractStridedSlice S2048x128 ![0, 256] (k0_pay2 (F := Ideal) x0 x1 x2) _ (ix2 p j)
      + Ideal.div (Ideal.ofBits .f32 0x3F800000#32) (Ideal.ofBits .f32 0x3F800000#32 + Ideal.exp (Ideal.ofBits .f32 0x00000000#32
        - (extractStridedSlice S2048x128 ![0, 0] (k0_pay2 (F := Ideal) x0 x1 x2) _ (ix2 p j)
            + broadcastTo S2048x128 (shapeCast S1x128 x3 _) _ (ix2 p j))))
        * broadcastTo S2048x128 (shapeCast S1x128 x5 _) _ (ix2 p j) = _
  rw [slice256_at, slice0_at, bcast128_at, bcast128_at, shapeCast_self, shapeCast_self, proj_at, proj_at, zero_word_sub]
  rfl

/-- The stored column at row `p`, over the update gate `z` and the candidate's argument `a` of the whole block. -/
theorem store_at (z a : FVec Ideal S2048x128 .f32) (x6 : Vec Ideal S1x128 .f32) (x7 : Vec Ideal S1x1 .f32) (p : Fin 2048) :
    k0_pay1 (F := Ideal) z a x6 x7 (ix2 p (0 : Fin 1))
      = headOf (fun j => z (ix2 p j)) (fun j => a (ix2 p j)) (fun j => x6 (ix2 (0 : Fin 1) j)) (x7 (ix2 (0 : Fin 1) (0 : Fin 1))) := by
  unfold k0_pay1
  show shapeCast S2048x1 (multiReduction (F := Ideal) (φ := .f32) .add [1] S2048
        (fun i => (Ideal.ofBits .f32 0x3F800000#32 - z i) * Ideal.tanh (a i) * broadcastTo S2048x128 x6 _ i) 0x00000000#32 _ _ _) _ (ix2 p (0 : Fin 1))
      + broadcastTo S2048x1 (shapeCast S1x1 x7 _) _ (ix2 p (0 : Fin 1)) = _
  refine (congrArg₂ (· + ·) (rowsum_at _ _ _ _ _ p) (bcast1_at _ _ p)).trans ?_
  rw [shapeCast_self]
  simp only [bcast128_at]
  rfl

/-- ROW `p` OF THE STORED COLUMN is the head of row `p` of the block of `x`. -/
theorem row_eq_head (x3 x4 x5 x6 : Vec Ideal S1x128 .f32) (x7 : Vec Ideal S1x1 .f32) (p : Fin 2048) :
    k0_pay1 (F := Ideal) (k0_pay3 x0 x1 x2 x4) (k0_pay4 x0 x1 x2 x3 x5) x6 x7 (ix2 p (0 : Fin 1))
      = head (fun k => x0 (ix2 p k)) (fun g k => x1 (ix2 k g)) (fun g => x2 (ix2 (0 : Fin 1) g))
          (fun j => x3 (ix2 (0 : Fin 1) j)) (fun j => x4 (ix2 (0 : Fin 1) j)) (fun j => x5 (ix2 (0 : Fin 1) j))
          (fun j => x6 (ix2 (0 : Fin 1) j)) (x7 (ix2 (0 : Fin 1) (0 : Fin 1))) := by
  rw [store_at]
  simp only [update_at, cand_at]
  rfl

end Cert.KernelIdeal.PayValue

end
-- ==== Proof.ColumnArray.lean ====
/-
  The array the region leaves: one column of 65536 entries, entry `r` the head of row `r` of the flattened input.

  The grid has 32 points. At point `t` the body sees rows `[2048·t, 2048·t + 2048)` of the flattened input and the
  whole of every parameter array, and writes back rows `[2048·t, 2048·t + 2048)` of the output column. Row `p` of
  what it stores is the head of row `p` of its block, that is of row `2048·t + p` of the array; the 32 blocks
  tile the column, so after the run the column is that function everywhere.
-/
import proofs.«102016_j12790412607633_1_alg».proof.Proof.Gen.KernelIdeal.Frame
import proofs.«102016_j12790412607633_1_alg».proof.Proof.PayloadRows
import Idealize.ShloMosaic.Lib.Pipeline.Value

noncomputable section

namespace Cert.KernelIdeal.ColValue

open Cert.KernelIdeal Cert.KernelIdeal.Gen Idealize.ShloMosaic Idealize.ShloMosaic.TcCoe Idealize.SL.Sem
open Idealize.ShloMosaic.ValueIdx Cert.ZeroStateGru
open Idealize.ShloMosaic.Pipeline (Dat)

/-- The column as a function of the arrays the region finds: the flattened input `X`, the transposed weights `W`,
    the biases as rows, the head's weights and bias. -/
def colOf (X : S65536x1024.Idx → EReal) (W : S1024x384.Idx → EReal) (B : S1x384.Idx → EReal)
    (Br Bz Bn Lw : S1x128.Idx → EReal) (Lb : S1x1.Idx → EReal) : S65536x1.Idx → EReal := fun i =>
  head (fun k => X (ix2 (i 0) k)) (fun g k => W (ix2 k g)) (fun g => B (ix2 (0 : Fin 1) g))
    (fun j => Br (ix2 (0 : Fin 1) j)) (fun j => Bz (ix2 (0 : Fin 1) j)) (fun j => Bn (ix2 (0 : Fin 1) j))
    (fun j => Lw (ix2 (0 : Fin 1) j)) (Lb (ix2 (0 : Fin 1) (0 : Fin 1)))

/-- What the body stores from blocks that are the arrays' rows `[2048·T, 2048·T + 2048)` of `X` and the whole
    parameter arrays, at a block index `y`, is the column's entry at any array index `i` on row `2048·T + y₀`. -/
theorem stored_eq_col (X : S65536x1024.Idx → EReal) (W : S1024x384.Idx → EReal) (B : S1x384.Idx → EReal)
    (Br Bz Bn Lw : S1x128.Idx → EReal) (Lb : S1x1.Idx → EReal)
    (b0 : Vec Ideal S2048x1024 .f32) (b1 : Vec Ideal S1024x384 .bf16) (b2 : Vec Ideal S1x384 .f32)
    (b3 b4 b5 b6 : Vec Ideal S1x128 .f32) (b7 : Vec Ideal S1x1 .f32) (T : Nat)
    (h0 : ∀ (p : Fin 2048) (k : Fin 1024) (r : Fin 65536), r.val = T * 2048 + p.val → b0 (ix2 p k) = X (ix2 r k))
    (h1 : b1 = W) (h2 : b2 = B) (h3 : b3 = Br) (h4 : b4 = Bz) (h5 : b5 = Bn) (h6 : b6 = Lw) (h7 : b7 = Lb)
    (y : S2048x1.Idx) (i : S65536x1.Idx) (hi : (i 0).val = T * 2048 + (y 0).val) :
    k0_pay1 (F := Ideal) (k0_pay3 b0 b1 b2 b4) (k0_pay4 b0 b1 b2 b3 b5) b6 b7 y = colOf X W B Br Bz Bn Lw Lb i := by
  subst h1 h2 h3 h4 h5 h6 h7
  obtain ⟨p, q, rfl⟩ : ∃ (p : Fin 2048) (q : Fin 1), y = ix2 p q := ⟨y 0, y 1, eq_ix2 y⟩
  obtain ⟨r, s, rfl⟩ : ∃ (r : Fin 65536) (s : Fin 1), i = ix2 r s := ⟨i 0, i 1, eq_ix2 i⟩
  have hq : q = 0 := Subsingleton.elim _ _
  subst hq
  rw [PayValue.row_eq_head]
  have hx : (fun k => b0 (ix2 p k)) = fun k => X (ix2 r k) := funext fun k => h0 p k r hi
  rw [hx]
  rfl

/-! ## The blocks at a point -/

variable (m : (ℓ : Loc nD τ sig) → Buf (Elt Ideal) ℓ)

theorem hz : (![0, 0] : Fin 2 → Nat) = fun _ => 0 := funext fun a => by fin_cases a <;> rfl

/-- The printed index maps, decided over the 32 points: the input's and the output's block index on the row axis is
    the point itself, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The block of the flattened input at point `t`: row `p` of it is row `2048·t + p` of the array. -/
theorem xblock_at (c : Dev nD) (t : Fin cfg0.N) (p : Fin 2048) (k : Fin 1024) (r : Fin 65536) (hr : r.val = t.val * 2048 + p.val) :
    (iblk m c 0 t : Vec Ideal S2048x1024 .f32) (ix2 p k) = V m c main_v0 (ix2 r k) := by
  obtain ⟨e00, e01, -⟩ := idx_facts t
  show V m c main_v0 (((cfg0.win 0).blk t).view.emb (ix2 p k)) = V m c main_v0 (ix2 r k)
  refine congrArg (V m c main_v0) (funext fun a => Fin.ext ?_)
  match a with
  | ⟨0, _⟩ => show win0_0.index t (0 : Fin 2) * 2048 + 1 * p.val = r.val; omega
  | ⟨1, _⟩ => show win0_0.index t (1 : Fin 2) * 1024 + 1 * k.val = k.val; omega

/-- Every parameter window has one block, the whole array: the transposed weights, -/
theorem block1_eq (c : Dev nD) (t : Fin cfg0.N) : (iblk m c 1 t : Vec Ideal S1024x384 .bf16) = V m c main_v2 := by
  obtain ⟨e00, e01, e10, e11, e20, e21, e30, e31, e40, e41, e50, e51, e60, e61, e70, e71, e80, e81⟩ := idx_facts t
  funext y
  show V m c main_v2 (((cfg0.win 1).blk t).view.emb y) = V m c main_v2 y
  refine congrArg (V m c main_v2) (funext fun a => Fin.ext ?_)
  match a with
  | ⟨0, _⟩ => show win0_1.index t (0 : Fin 2) * 1024 + 1 * (y 0).val = (y 0).val; omega
  | ⟨1, _⟩ => show win0_1.index t (1 : Fin 2) * 384 + 1 * (y 1).val = (y 1).val; omega
/-- the input bias as a row, -/
theorem block2_eq (c : Dev nD) (t : Fin cfg0.N) : (iblk m c 2 t : Vec Ideal S1x384 .f32) = V m c main_v3 := by
  obtain ⟨e00, e01, e10, e11, e20, e21, e30, e31, e40, e41, e50, e51, e60, e61, e70, e71, e80, e81⟩ := idx_facts t
  funext y
  show V m c main_v3 (((cfg0.win 2).blk t).view.emb y) = V m c main_v3 y
  refine congrArg (V m c main_v3) (funext fun a => Fin.ext ?_)
  match a with
  | ⟨0, _⟩ => show win0_2.index t (0 : Fin 2) * 1 + 1 * (y 0).val = (y 0).val; omega
  | ⟨1, _⟩ => show win0_2.index t (1 : Fin 2) * 384 + 1 * (y 1).val = (y 1).val; omega
/-- the reset gate's slice of the hidden bias, -/
theorem block3_eq (c : Dev nD) (t : Fin cfg0.N) : (iblk m c 3 t : Vec Ideal S1x128 .f32) = V m c main_v5 := by
  obtain ⟨e00, e01, e10, e11, e20, e21, e30, e31, e40, e41, e50, e51, e60, e61, e70, e71, e80, e81⟩ := idx_facts t
  funext y
  show V m c main_v5 (((cfg0.win 3).blk t).view.emb y) = V m c main_v5 y
  refine congrArg (V m c main_v5) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega
/-- the update gate's, -/
theorem block4_eq (c : Dev nD) (t : Fin cfg0.N) : (iblk m c 4 t : Vec Ideal S1x128 .f32) = V m c main_v7 := by
  obtain ⟨e00, e01, e10, e11, e20, e21, e30, e31, e40, e41, e50, e51, e60, e61, e70, e71, e80, e81⟩ := idx_facts t
  funext y
  show V m c main_v7 (((cfg0.win 4).blk t).view.emb y) = V m c main_v7 y
  refine congrArg (V m c main_v7) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega
/-- the candidate's, -/
theorem block5_eq (c : Dev nD) (t : Fin cfg0.N) : (iblk m c 5 t : Vec Ideal S1x128 .f32) = V m c main_v9 := by
  obtain ⟨e00, e01, e10, e11, e20, e21, e30, e31, e40, e41, e50, e51, e60, e61, e70, e71, e80, e81⟩ := idx_facts t
  funext y
  show V m c main_v9 (((cfg0.win 5).blk t).view.emb y) = V m c main_v9 y
  refine congrArg (V m c main_v9) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega
/-- the head's weights, -/
theorem block6_eq (c : Dev nD) (t : Fin cfg0.N) : (iblk m c 6 t : Vec Ideal S1x128 .f32) = V m c main_arg5 := by
  obtain ⟨e00, e01, e10, e11, e20, e21, e30, e31, e40, e41, e50, e51, e60, e61, e70, e71, e80, e81⟩ := idx_facts t
  funext y
  show V m c main_arg5 (((cfg0.win 6).blk t).view.emb y) = V m c main_arg5 y
  refine congrArg (V m c main_arg5) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega
/-- the head's bias. -/
theorem block7_eq (c : Dev nD) (t : Fin cfg0.N) : (iblk m c 7 t : Vec Ideal S1x1 .f32) = V m c main_v10 := by
  obtain ⟨e00, e01, e10, e11, e20, e21, e30, e31, e40, e41, e50, e51, e60, e61, e70, e71, e80, e81⟩ := idx_facts t
  funext y
  show V m c main_v10 (((cfg0.win 7).blk t).view.emb y) = V m c main_v10 y
  refine congrArg (V m c main_v10) (funext fun a => Fin.ext ?_)
  match a with
  | ⟨0, _⟩ => show win0_7.index t (0 : Fin 2) * 1 + 1 * (y 0).val = (y 0).val; omega
  | ⟨1, _⟩ => show win0_7.index t (1 : Fin 2) * 1 + 1 * (y 1).val = (y 1).val; omega

/-! ## What a point writes back, and the array after the run -/

/-- WHAT POINT `t` WRITES BACK is block `t` of the column of the arrays the region finds. -/
theorem flushed_eq (c : Dev nD) (t : Fin cfg0.N) :
    (dats m 0 c).flushed 8 t = ((cfg0.win 8).blk t).view.read (Elt Ideal) (colOf (V m c main_v0) (V m c main_v2) (V m c main_v3) (V m c main_v5) (V m c main_v7) (V m c main_v9) (V m c main_arg5) (V m c main_v10)) := by
  show (cfg0.win 8).cut (grid0.coords t) ((dats m 0 c).after 8 t) = _
  rw [after0_8]
  unfold out0_8
  rw [View.canon_unit_zero hz]
  simp only [View.ld_unit_zero (S := S2048x1024) hz, View.ld_unit_zero (S := S1024x384) hz, View.ld_unit_zero (S := S1x384) hz,
    View.ld_unit_zero (S := S1x128) hz, View.ld_unit_zero (S := S1x1) hz]
  obtain ⟨e00, e01, e10, e11, e20, e21, e30, e31, e40, e41, e50, e51, e60, e61, e70, e71, e80, e81⟩ := idx_facts t
  funext y
  exact stored_eq_col (V m c main_v0) (V m c main_v2) (V m c main_v3) (V m c main_v5) (V m c main_v7) (V m c main_v9) (V m c main_arg5) (V m c main_v10)
    (iblk m c 0 t) (iblk m c 1 t) (iblk m c 2 t) (iblk m c 3 t) (iblk m c 4 t) (iblk m c 5 t) (iblk m c 6 t) (iblk m c 7 t) t.val
    (fun p k r hr => xblock_at m c t p k r hr) (block1_eq m c t) (block2_eq m c t) (block3_eq m c t) (block4_eq m c t)
    (block5_eq m c t) (block6_eq m c t) (block7_eq m c t) y (((cfg0.win 8).blk t).view.emb y)
    (by show win0_8.index t (0 : Fin 2) * 2048 + 1 * (y 0).val = t.val * 2048 + (y 0).val; omega)

/-- An index of the column is in point `t`'s block iff each coordinate is in the block's range on its axis. -/
theorem mem_blk (t : Fin cfg0.N) (i : S65536x1.Idx) :
    i ∈ ((cfg0.win 8).blk t).view.set ↔ ∀ a : Fin 2, win0_8.index t a * S2048x1.size a ≤ (i a).val ∧ (i a).val < win0_8.index t a * S2048x1.size a + S2048x1.size a := by
  show i ∈ ((View.whole main_v11).slice (win0_8.rect t)).set ↔ _
  rw [View.set_slice_whole, Rect.mem_set_unit]
  exact Iff.rfl

/-- Row `r` of the column is in the block of point `r / 2048`: the 32 blocks tile the column. -/
theorem cover (i : S65536x1.Idx) : ∃ t : Fin cfg0.N, (cfg0.win 8).flush t = true ∧ i ∈ ((cfg0.win 8).blk t).view.set := by
  have hi0 : (i 0).val < 65536 := (i 0).isLt
  have hi1 : (i 1).val < 1 := (i 1).isLt
  obtain ⟨t, ht⟩ : ∃ t : Fin cfg0.N, t.val = (i 0).val / 2048 :=
    ⟨⟨(i 0).val / 2048, by rw [show cfg0.N = 32 from N_0]; omega⟩, rfl⟩
  obtain ⟨e00, e01, e10, e11, e20, e21, e30, e31, e40, e41, e50, e51, e60, e61, e70, e71, e80, e81⟩ := idx_facts t
  refine ⟨t, flush0_8 t, ?_⟩
  rw [mem_blk]
  intro a
  match a with
  | ⟨0, _⟩ => show win0_8.index t (0 : Fin 2) * 2048 ≤ (i 0).val ∧ (i 0).val < win0_8.index t (0 : Fin 2) * 2048 + 2048; omega
  | ⟨1, _⟩ => show win0_8.index t (1 : Fin 2) * 1 ≤ (i 1).val ∧ (i 1).val < win0_8.index t (1 : Fin 2) * 1 + 1; omega

/-- THE COLUMN AFTER THE RUN is `colOf` of the arrays the region finds. -/
theorem final (c : Dev nD) : (dats m 0 c).arrAt 8 cfg0.N = colOf (V m c main_v0) (V m c main_v2) (V m c main_v3) (V m c main_v5) (V m c main_v7) (V m c main_v9) (V m c main_arg5) (V m c main_v10) :=
  (dats m 0 c).arrAt_eq_of_cover 8 (colOf (V m c main_v0) (V m c main_v2) (V m c main_v3) (V m c main_v5) (V m c main_v7) (V m c main_v9) (V m c main_arg5) (V m c main_v10)) (fun t _ => flushed_eq m c t) cover

end Cert.KernelIdeal.ColValue

end
-- ==== Proof.KernelRun.lean ====
/-
  The kernel program's run, with its result named.

  Before the region the host flattens `x` to 65536 rows, transposes the input weights (and changes their
  format, which does nothing on the extended reals), and views each bias as a row: the input bias whole, the
  hidden bias in its three slices of 128, the head's bias as a single entry. After the region it views the
  column of 65536 results as 32 × 2048. Flattening sends row `(b, l)` to row `2048·b + l` and back, so entry
  `(b, l)` of the result is the head of row `(b, l)` of `x` against the original parameter arrays: `result`.
-/
import proofs.«102016_j12790412607633_1_alg».proof.Proof.ColumnArray
import Idealize.ShloMosaic.Lib.Pipeline.Value
import Idealize.ShloMosaic.Lib.StableHlo.Run

noncomputable section

namespace Cert.KernelIdeal.RunValue

open Cert.KernelIdeal Cert.KernelIdeal.Gen Idealize.ShloMosaic Idealize.ShloMosaic.TcCoe Idealize.SL.Sem
open Idealize.ShloMosaic.ValueIdx Cert.ZeroStateGru Cert.KernelIdeal.ColValue Idealize.ShloMosaic.StableHlo
open Idealize.ShloMosaic.Pipeline (Dat)

variable (m : (ℓ : Loc nD τ sig) → Buf (Elt Ideal) ℓ) (ρ : Dev nD → PrngReg)

/-! ## The arrays the region finds, in terms of the arguments -/

theorem V_x_eq (c : Dev nD) : (V m c main_v0 : S65536x1024.Idx → EReal)
    = shapeCast S65536x1024 (m ((c : Thread nD τ).loc main_arg0)) shapeCasts_S32x2048x1024_S65536x1024 := by
  show StableHlo.after hostOps0 (fun b => m (c, b)) (Proc.devRef .tc main_v0) = _
  after_results <;> rfl

theorem V_w_eq (c : Dev nD) : (V m c main_v2 : S1024x384.Idx → EReal)
    = (truncf (F := Ideal) .bf16 (transpose S1024x384 [1, 0] (m ((c : Thread nD τ).loc main_arg1)) transposes_S384x1024_S1024x384_1_0) bitsLt_bf16_f32 : S1024x384.Idx → EReal) := by
  show StableHlo.after hostOps0 (fun b => m (c, b)) (Proc.devRef .tc main_v2) = _
  after_results <;> rfl

theorem V_b_eq (c : Dev nD) : (V m c main_v3 : S1x384.Idx → EReal)
    = shapeCast S1x384 (m ((c : Thread nD τ).loc main_arg3)) shapeCasts_S384_S1x384 := by
  show StableHlo.after hostOps0 (fun b => m (c, b)) (Proc.devRef .tc main_v3) = _
  after_results <;> rfl

theorem V_br_eq (c : Dev nD) : (V m c main_v5 : S1x128.Idx → EReal)
    = shapeCast S1x128 (extractStridedSlice S128 ![0] (m ((c : Thread nD τ).loc main_arg4)) slices_S384_S128_0) shapeCasts_S128_S1x128 := by
  show StableHlo.after hostOps0 (fun b => m (c, b)) (Proc.devRef .tc main_v5) = _
  after_results <;> rfl

theorem V_bz_eq (c : Dev nD) : (V m c main_v7 : S1x128.Idx → EReal)
    = shapeCast S1x128 (extractStridedSlice S128 ![128] (m ((c : Thread nD τ).loc main_arg4)) slices_S384_S128_128) shapeCasts_S128_S1x128 := by
  show StableHlo.after hostOps0 (fun b => m (c, b)) (Proc.devRef .tc main_v7) = _
  after_results <;> rfl

theorem V_bn_eq (c : Dev nD) : (V m c main_v9 : S1x128.Idx → EReal)
    = shapeCast S1x128 (extractStridedSlice S128 ![256] (m ((c : Thread nD τ).loc main_arg4)) slices_S384_S128_256) shapeCasts_S128_S1x128 := by
  show StableHlo.after hostOps0 (fun b => m (c, b)) (Proc.devRef .tc main_v9) = _
  after_results <;> rfl

theorem V_lb_eq (c : Dev nD) : (V m c main_v10 : S1x1.Idx → EReal)
    = shapeCast S1x1 (m ((c : Thread nD τ).loc main_arg6)) shapeCasts_S1_S1x1 := by
  show StableHlo.after hostOps0 (fun b => m (c, b)) (Proc.devRef .tc main_v10) = _
  after_results <;> rfl

/-! ## The same, index by index -/

/-- Row `2048·b + l` of the flattened input is row `(b, l)` of `x`. -/
theorem x_at (c : Dev nD) (b : Fin 32) (l : Fin 2048) (k : Fin 1024) (r : Fin 65536) (hr : r.val = b.val * 2048 + l.val) :
    V m c main_v0 (ix2 r k) = (m ((c : Thread nD τ).loc main_arg0)) (ix3 b l k) := by
  rw [V_x_eq]
  exact shapeCast_apply _ _ (ix2 r k) (ix3 b l k) (by
    rw [Shape.rowMajor_val_three, Shape.rowMajor_val_two]
    show (b.val * 2048 + l.val) * 1024 + k.val = r.val * 1024 + k.val
    rw [hr])

/-- Entry `(k, g)` of the transposed weights is entry `(g, k)` of `weight_ih`. -/
theorem w_at (c : Dev nD) (k : Fin 1024) (g : Fin 384) : V m c main_v2 (ix2 k g) = (m ((c : Thread nD τ).loc main_arg1)) (ix2 g k) := by
  rw [V_w_eq]
  show transpose S1024x384 [1, 0] (m ((c : Thread nD τ).loc main_arg1)) transposes_S384x1024_S1024x384_1_0 (ix2 k g) = _
  exact transpose_apply [1, 0] _ _ (ix2 k g) (ix2 g k) (fun b => match b with
    | ⟨0, _⟩ => rfl
    | ⟨1, _⟩ => rfl)

theorem b_at (c : Dev nD) (g : Fin 384) : V m c main_v3 (ix2 (0 : Fin 1) g) = (m ((c : Thread nD τ).loc main_arg3)) (ix1 g) := by
  rw [V_b_eq]
  exact shapeCast_apply _ _ (ix2 (0 : Fin 1) g) (ix1 g) (by
    rw [Shape.rowMajor_val_one, Shape.rowMajor_val_two]; show g.val = 0 * 384 + g.val; omega)

theorem br_at (c : Dev nD) (j : Fin 128) : V m c main_v5 (ix2 (0 : Fin 1) j) = (m ((c : Thread nD τ).loc main_arg4)) (ix1 (rgate j)) := by
  rw [V_br_eq]
  refine (shapeCast_apply _ _ (ix2 (0 : Fin 1) j) (ix1 j) (by
    rw [Shape.rowMajor_val_one, Shape.rowMajor_val_two]; show j.val = 0 * 128 + j.val; omega)).trans ?_
  exact extractStridedSlice_apply ![0] _ _ (ix1 j) (ix1 (rgate j)) (fun a => match a with
    | ⟨0, _⟩ => by show j.val = 0 + j.val; omega)

theorem bz_at (c : Dev nD) (j : Fin 128) : V m c main_v7 (ix2 (0 : Fin 1) j) = (m ((c : Thread nD τ).loc main_arg4)) (ix1 (zgate j)) := by
  rw [V_bz_eq]
  refine (shapeCast_apply _ _ (ix2 (0 : Fin 1) j) (ix1 j) (by
    rw [Shape.rowMajor_val_one, Shape.rowMajor_val_two]; show j.val = 0 * 128 + j.val; omega)).trans ?_
  exact extractStridedSlice_apply ![128] _ _ (ix1 j) (ix1 (zgate j)) (fun a => match a with
    | ⟨0, _⟩ => rfl)

theorem bn_at (c : Dev nD) (j : Fin 128) : V m c main_v9 (ix2 (0 : Fin 1) j) = (m ((c : Thread nD τ).loc main_arg4)) (ix1 (ngate j)) := by
  rw [V_bn_eq]
  refine (shapeCast_apply _ _ (ix2 (0 : Fin 1) j) (ix1 j) (by
    rw [Shape.rowMajor_val_one, Shape.rowMajor_val_two]; show j.val = 0 * 128 + j.val; omega)).trans ?_
  exact extractStridedSlice_apply ![256] _ _ (ix1 j) (ix1 (ngate j)) (fun a => match a with
    | ⟨0, _⟩ => rfl)

theorem lb_at (c : Dev nD) : V m c main_v10 (ix2 (0 : Fin 1) (0 : Fin 1)) = (m ((c : Thread nD τ).loc main_arg6)) (ix1 (0 : Fin 1)) := by
  rw [V_lb_eq]
  exact shapeCast_apply _ _ (ix2 (0 : Fin 1) (0 : Fin 1)) (ix1 (0 : Fin 1)) (by
    rw [Shape.rowMajor_val_one, Shape.rowMajor_val_two]; rfl)

/-! ## The column viewed as 32 × 2048 is the specification -/

theorem col_eq_result (c : Dev nD) :
    shapeCast S32x2048 (colOf (V m c main_v0) (V m c main_v2) (V m c main_v3) (V m c main_v5) (V m c main_v7) (V m c main_v9) (V m c main_arg5) (V m c main_v10)) shapeCasts_S65536x1_S32x2048 = result (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  funext i
  obtain ⟨b, l, rfl⟩ : ∃ (b : Fin 32) (l : Fin 2048), i = ix2 b l := ⟨i 0, i 1, eq_ix2 i⟩
  have hb : b.val < 32 := b.isLt
  have hl : l.val < 2048 := l.isLt
  obtain ⟨r, hr⟩ : ∃ r : Fin 65536, r.val = b.val * 2048 + l.val := ⟨⟨b.val * 2048 + l.val, by omega⟩, rfl⟩
  rw [shapeCast_apply _ _ (ix2 b l) (ix2 r (0 : Fin 1)) (by
    rw [Shape.rowMajor_val_two, Shape.rowMajor_val_two]; show r.val * 1 + 0 = b.val * 2048 + l.val; omega)]
  show head (fun k => V m c main_v0 (ix2 r k)) (fun g k => V m c main_v2 (ix2 k g)) (fun g => V m c main_v3 (ix2 (0 : Fin 1) g))
      (fun j => V m c main_v5 (ix2 (0 : Fin 1) j)) (fun j => V m c main_v7 (ix2 (0 : Fin 1) j)) (fun j => V m c main_v9 (ix2 (0 : Fin 1) j))
      (fun j => V m c main_arg5 (ix2 (0 : Fin 1) j)) (V m c main_v10 (ix2 (0 : Fin 1) (0 : Fin 1))) = _
  have hx : (fun k => V m c main_v0 (ix2 r k)) = fun k => (m ((c : Thread nD τ).loc main_arg0)) (ix3 b l k) := funext fun k => x_at m c b l k r hr
  have hw : (fun (g : Fin 384) (k : Fin 1024) => V m c main_v2 (ix2 k g)) = fun g k => (m ((c : Thread nD τ).loc main_arg1)) (ix2 g k) :=
    funext fun g => funext fun k => w_at m c k g
  have hbi : (fun (g : Fin 384) => V m c main_v3 (ix2 (0 : Fin 1) g)) = fun g => (m ((c : Thread nD τ).loc main_arg3)) (ix1 g) := funext fun g => b_at m c g
  have hbr : (fun (j : Fin 128) => V m c main_v5 (ix2 (0 : Fin 1) j)) = fun j => (m ((c : Thread nD τ).loc main_arg4)) (ix1 (rgate j)) := funext fun j => br_at m c j
  have hbz : (fun (j : Fin 128) => V m c main_v7 (ix2 (0 : Fin 1) j)) = fun j => (m ((c : Thread nD τ).loc main_arg4)) (ix1 (zgate j)) := funext fun j => bz_at m c j
  have hbn : (fun (j : Fin 128) => V m c main_v9 (ix2 (0 : Fin 1) j)) = fun j => (m ((c : Thread nD τ).loc main_arg4)) (ix1 (ngate j)) := funext fun j => bn_at m c j
  have hlw : (fun (j : Fin 128) => V m c main_arg5 (ix2 (0 : Fin 1) j)) = fun j => (m ((c : Thread nD τ).loc main_arg5)) (ix2 (0 : Fin 1) j) :=
    funext fun j => congrFun (V_main_arg5 m c) _
  rw [hx, hw, hbi, hbr, hbz, hbn, hlw, lb_at]
  rfl

/-! ## The host line after the region, and the run -/

/-- The program's result is the region's column viewed as 32 × 2048. -/
theorem tail_eq (c : Dev nD) : Pipeline.afterTail₀ cfgs (dats m) 0 (V0 m) [hostOps1] c main_v12
    = shapeCast S32x2048 ((dats m 0 c).arrAt 8 cfg0.N) shapeCasts_S65536x1_S32x2048 := by
  unfold Pipeline.afterTail₀
  show StableHlo.after hostOps1 _ (Proc.devRef .tc main_v12) = _
  after_results
  funext i
  exact congrArg (fun A : S65536x1.Idx → EReal => shapeCast S32x2048 A shapeCasts_S65536x1_S32x2048 i)
    (Pipeline.withArrays_arr spec0 launch0.win.arr_inj c (V0 m c) (fun w => (dats m 0 c).arrAt w cfg0.N) 8)

/-- THE KERNEL PROGRAM'S RUN: every weakly fair execution terminates with the result at `result` of the arguments,
    the arguments unchanged. -/
theorem run : θ_run defs (onTc (τ := τ) (main (F := Ideal))) ⟨m, fun _ => 0, ρ⟩ fun r => ∀ c : Dev nD,
      r.2.mem ((c.tc : Thread nD τ).loc main_v12) = result (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨(((h c).2 main_v12 (Pipeline.mem_restRefs_of main_v12 (by decide) (by decide))).trans (tail_eq m c)).trans
        ((congrArg (fun A : S65536x1.Idx → EReal => shapeCast S32x2048 A shapeCasts_S65536x1_S32x2048) (final m c)).trans (col_eq_result m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 6).trans (((dats m 0 c).arrAt_in 6 rfl _).trans ((A_eq m c 6).trans (V_main_arg5 m c))),
      ((h c).2 main_arg6 (Pipeline.mem_restRefs_of main_arg6 (by decide) (by decide))).trans (W_main_arg6 m (dats m) c)⟩)
    (run_main m ρ)

end Cert.KernelIdeal.RunValue

end
-- ==== Proof.lean ====
/-
  A GRU cell whose hidden state is never updated, followed by a linear head, computed two ways.

  The kernel flattens the input `x` (32 × 2048 rows of 1024) to 65536 rows, walks them in 32 blocks of 2048 rows,
  multiplies each block by the transposed input weights, splits the 384 columns into the three gates, adds the
  matching slices of the hidden bias, applies `σ(a) = 1 / (1 + e^{-a})` to the reset and update gates and `tanh` to
  the candidate, forms `(1 - z) · n`, and sums its product with the head's weights over the 128 lanes. The
  reference does the same on the unflattened arrays with two contractions. On the extended reals the change of
  float format in the kernel is the identity, a sum does not depend on how it is grouped, and the kernel's
  `0 - a` is the reference's `-a`; so both results are the one function `ZeroStateGru.result` of the arguments,
  entry `(b, l)` being the head of row `(b, l)`. No law used needs finiteness: the precondition is not opened.

  The three frames are the generated ones (the reference's is its generated run with the result dropped); the
  idealization changed nothing, so `preserves` is trivial.
-/
import proofs.«102016_j12790412607633_1_alg».proof.Defs
import proofs.«102016_j12790412607633_1_alg».proof.Proof.Gen.Kernel
import proofs.«102016_j12790412607633_1_alg».proof.Proof.Gen.Kernel.Skeleton
import proofs.«102016_j12790412607633_1_alg».proof.Proof.Gen.Kernel.Launch
import proofs.«102016_j12790412607633_1_alg».proof.Proof.Gen.Kernel.Points
import proofs.«102016_j12790412607633_1_alg».proof.Proof.Gen.Kernel.Frame
import proofs.«102016_j12790412607633_1_alg».proof.Proof.Gen.KernelIdeal
import proofs.«102016_j12790412607633_1_alg».proof.Proof.Gen.KernelIdeal.Skeleton
import proofs.«102016_j12790412607633_1_alg».proof.Proof.Gen.KernelIdeal.Launch
import proofs.«102016_j12790412607633_1_alg».proof.Proof.Gen.KernelIdeal.Points
import proofs.«102016_j12790412607633_1_alg».proof.Proof.Gen.KernelIdeal.Frame
import proofs.«102016_j12790412607633_1_alg».proof.Proof.Gen.ReferenceIdeal
import proofs.«102016_j12790412607633_1_alg».proof.Proof.Gen.Pre_finite_inputs
import proofs.«102016_j12790412607633_1_alg».proof.Proof.Gen.ReferenceIdeal.Run
import proofs.«102016_j12790412607633_1_alg».proof.Proof.Gen.ReferenceIdeal.Read
import proofs.«102016_j12790412607633_1_alg».proof.Proof.ZeroStateGru
import proofs.«102016_j12790412607633_1_alg».proof.Proof.ReferenceRows
import proofs.«102016_j12790412607633_1_alg».proof.Proof.KernelRun
import Idealize.ShloMosaic.Adequacy
import Idealize.ShloMosaic.Init

noncomputable section

namespace Cert.Proof

open Idealize.ShloMosaic Idealize.SL.Sem

/-- The word-level kernel terminates, does not fault and leaves its arguments as they were. -/
theorem frame_kernel : Cert.frame_Kernel := fun m ρ _ => Cert.Kernel.Gen.frame m ρ

/-- The same of the idealized kernel. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with `result` of the arguments. -/
theorem algebraic : Cert.algebraic_KernelIdeal_ReferenceIdeal := by
  intro m ρ m' ρ' _ hagree
  refine ⟨fun c => Cert.ZeroStateGru.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.RunValue.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6⟩ := hagree c
  rw [(h c).1, Cert.ReferenceIdeal.Read.val_main_v40_eq, Cert.ReferenceIdeal.RefValue.val_eq_result, a0, a1, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
